-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v47)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v47) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v48) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S800000x2 : Shape := ⟨2, ![800000, 2]⟩
abbrev S256x128 : Shape := ⟨2, ![256, 128]⟩
abbrev S256 : Shape := ⟨1, ![256]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S256x128 : S_.BroadcastsInDim S256x128 (![] : Fin 0 → Fin S256x128.rank)
  reducesTo_S256x128_S_d0_1 : S256x128.ReducesTo [0, 1] S_
  bcast_S_S256 : S_.BroadcastsInDim S256 (![] : Fin 0 → Fin S256.rank)
  reducesTo_S256_S_d0 : S256.ReducesTo [0] S_

variable [Facts]

def fn {F : FTy → Type} [FloatOps F] (main_arg0 : FVec F S50000x128 .f32) (main_arg1 : IVec S800000x2 32) (main_arg2 : FVec F S256x128 .f32) (main_arg3 : FVec F S256 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S256x128 .f32 := Host.absf main_arg2
  let main_cst_0 : FVec F S_ .f32 := constant S_ .f32 0x7F800000#32
  let main_v5 : FVec F S256x128 .f32 := broadcastInDim S256x128 ![] bcast_S_S256x128 main_cst_0
  let main_v6 : IVec S256x128 1 := cmpf .olt main_v4 main_v5
  let main_c_1 : IVec S_ 1 := constantI S_ 1 1#1
  let main_v7 : IVec S_ 1 := (fun x v => Host.reduce IntOp.andi x v reducesTo_S256x128_S_d0_1 h_S_) main_v6 main_c_1
  let main_v8 : IVec S_ 1 := andi main_v3 main_v7
  let main_v9 : FVec F S256 .f32 := Host.absf main_arg3
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  main_v13
-- ==== Kernel.lean ====
abbrev S50000x128 : Shape := ⟨2, ![50000, 128]⟩
abbrev S800000x2 : Shape := ⟨2, ![800000, 2]⟩
abbrev S256x128 : Shape := ⟨2, ![256, 128]⟩
abbrev S256 : Shape := ⟨1, ![256]⟩
abbrev S800000x1 : Shape := ⟨2, ![800000, 1]⟩
abbrev S800000 : Shape := ⟨1, ![800000]⟩
abbrev S50000 : Shape := ⟨1, ![50000]⟩
abbrev S850000 : Shape := ⟨1, ![850000]⟩
abbrev S128x256 : Shape := ⟨2, ![128, 256]⟩
abbrev S50000x256 : Shape := ⟨2, ![50000, 256]⟩
abbrev S5000x128 : Shape := ⟨2, ![5000, 128]⟩
abbrev S5000x256 : Shape := ⟨2, ![5000, 256]⟩
abbrev S_ : Shape := ⟨0, ![]⟩
abbrev S850000x1 : Shape := ⟨2, ![850000, 1]⟩
abbrev S850000x256 : Shape := ⟨2, ![850000, 256]⟩
abbrev S1x256 : Shape := ⟨2, ![1, 256]⟩

abbrev nBuf : Space → Nat
  | .hbm => 65
  | .vmem => 10
  | .smem => 0
  | _ => 0

abbrev bufTy : (tb : Table) → Fin (tcTables nBuf tb) → BufTy
  | .hbm, ⟨0, _⟩ => ⟨S50000x128, .f32⟩
  | .hbm, ⟨1, _⟩ => ⟨S800000x2, .i32⟩
  | .hbm, ⟨2, _⟩ => ⟨S256x128, .f32⟩
  | .hbm, ⟨3, _⟩ => ⟨S256, .f32⟩
  | .hbm, ⟨4, _⟩ => ⟨S800000x1, .i32⟩
  | .hbm, ⟨5, _⟩ => ⟨S800000, .i32⟩
  | .hbm, ⟨6, _⟩ => ⟨S800000x1, .i32⟩
  | .hbm, ⟨7, _⟩ => ⟨S800000, .i32⟩
  | .hbm, ⟨8, _⟩ => ⟨S50000, .i32⟩
  | .hbm, ⟨9, _⟩ => ⟨S850000, .i32⟩
  | .hbm, ⟨10, _⟩ => ⟨S850000, .i32⟩
  | .hbm, ⟨11, _⟩ => ⟨S128x256, .f32⟩
  | .hbm, ⟨12, _⟩ => ⟨S128x256, .bf16⟩
  | .hbm, ⟨13, _⟩ => ⟨S50000x256, .f32⟩
  | .hbm, ⟨14, _⟩ => ⟨S_, .f32⟩
  | .hbm, ⟨15, _⟩ => ⟨S850000, .f32⟩
  | .hbm, ⟨16, _⟩ => ⟨S_, .f32⟩
  | .hbm, ⟨17, _⟩ => ⟨S50000, .f32⟩
  | .hbm, ⟨18, _⟩ => ⟨S850000x1, .i32⟩
  | .hbm, ⟨19, _⟩ => ⟨S50000, .f32⟩
  | .hbm, ⟨20, _⟩ => ⟨S_, .f32⟩
  | .hbm, ⟨21, _⟩ => ⟨S50000, .f32⟩
  | .hbm, ⟨22, _⟩ => ⟨S50000, .i1⟩
  | .hbm, ⟨23, _⟩ => ⟨S50000, .f32⟩
  | .hbm, ⟨24, _⟩ => ⟨S_, .f32⟩
  | .hbm, ⟨25, _⟩ => ⟨S_, .f32⟩
  | .hbm, ⟨26, _⟩ => ⟨S50000, .f32⟩
  | .hbm, ⟨27, _⟩ => ⟨S50000, .f32⟩
  | .hbm, ⟨28, _⟩ => ⟨S_, .i32⟩
  | .hbm, ⟨29, _⟩ => ⟨S850000, .i32⟩
  | .hbm, ⟨30, _⟩ => ⟨S850000, .i1⟩
  | .hbm, ⟨31, _⟩ => ⟨S_, .i32⟩
  | .hbm, ⟨32, _⟩ => ⟨S850000, .i32⟩
  | .hbm, ⟨33, _⟩ => ⟨S850000, .i32⟩
  | .hbm, ⟨34, _⟩ => ⟨S850000, .i32⟩
  | .hbm, ⟨35, _⟩ => ⟨S850000x1, .i32⟩
  | .hbm, ⟨36, _⟩ => ⟨S850000, .f32⟩
  | .hbm, ⟨37, _⟩ => ⟨S_, .i32⟩
  | .hbm, ⟨38, _⟩ => ⟨S850000, .i32⟩
  | .hbm, ⟨39, _⟩ => ⟨S850000, .i1⟩
  | .hbm, ⟨40, _⟩ => ⟨S_, .i32⟩
  | .hbm, ⟨41, _⟩ => ⟨S850000, .i32⟩
  | .hbm, ⟨42, _⟩ => ⟨S850000, .i32⟩
  | .hbm, ⟨43, _⟩ => ⟨S850000, .i32⟩
  | .hbm, ⟨44, _⟩ => ⟨S850000x1, .i32⟩
  | .hbm, ⟨45, _⟩ => ⟨S850000, .f32⟩
  | .hbm, ⟨46, _⟩ => ⟨S850000, .f32⟩
  | .hbm, ⟨47, _⟩ => ⟨S_, .i32⟩
  | .hbm, ⟨48, _⟩ => ⟨S850000, .i32⟩
  | .hbm, ⟨49, _⟩ => ⟨S850000, .i1⟩
  | .hbm, ⟨50, _⟩ => ⟨S_, .i32⟩
  | .hbm, ⟨51, _⟩ => ⟨S850000, .i32⟩
  | .hbm, ⟨52, _⟩ => ⟨S850000, .i32⟩
  | .hbm, ⟨53, _⟩ => ⟨S850000, .i32⟩
  | .hbm, ⟨54, _⟩ => ⟨S850000x1, .i32⟩
  | .hbm, ⟨55, _⟩ => ⟨S850000x256, .f32⟩
  | .hbm, ⟨56, _⟩ => ⟨S850000x1, .f32⟩
  | .hbm, ⟨57, _⟩ => ⟨S850000x256, .f32⟩
  | .hbm, ⟨58, _⟩ => ⟨S850000x256, .f32⟩
  | .hbm, ⟨59, _⟩ => ⟨S_, .f32⟩
  | .hbm, ⟨60, _⟩ => ⟨S50000x256, .f32⟩
  | .hbm, ⟨61, _⟩ => ⟨S850000x1, .i32⟩
  | .hbm, ⟨62, _⟩ => ⟨S50000x256, .f32⟩
  | .hbm, ⟨63, _⟩ => ⟨S1x256, .f32⟩
  | .hbm, ⟨64, _⟩ => ⟨S50000x256, .f32⟩
  | .local _ .vmem, ⟨0, _⟩ => ⟨S5000x128, .f32⟩
  | .local _ .vmem, ⟨1, _⟩ => ⟨S5000x128, .f32⟩
  | .local _ .vmem, ⟨2, _⟩ => ⟨S128x256, .bf16⟩
  | .local _ .vmem, ⟨3, _⟩ => ⟨S5000x256, .f32⟩
  | .local _ .vmem, ⟨4, _⟩ => ⟨S5000x256, .f32⟩
  | .local _ .vmem, ⟨5, _⟩ => ⟨S5000x256, .f32⟩
  | .local _ .vmem, ⟨6, _⟩ => ⟨S5000x256, .f32⟩
  | .local _ .vmem, ⟨7, _⟩ => ⟨S1x256, .f32⟩
  | .local _ .vmem, ⟨8, _⟩ => ⟨S5000x256, .f32⟩
  | .local _ .vmem, ⟨9, _⟩ => ⟨S5000x256, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst : Ref sig .tc := ⟨.hbm, 14, rfl⟩
abbrev main_v10 : Ref sig .tc := ⟨.hbm, 15, rfl⟩
abbrev main_cst_0 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst_1 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_2 : Ref sig .tc := ⟨.hbm, 24, rfl⟩
abbrev main_call0_v0 : Ref sig .tc := ⟨.hbm, 25, rfl⟩
abbrev main_call0_v1 : Ref sig .tc := ⟨.hbm, 26, rfl⟩
abbrev main_v17 : Ref sig .tc := ⟨.hbm, 27, rfl⟩
abbrev main_c : Ref sig .tc := ⟨.hbm, 28, rfl⟩
abbrev main_v18 : Ref sig .tc := ⟨.hbm, 29, rfl⟩
abbrev main_v19 : Ref sig .tc := ⟨.hbm, 30, rfl⟩
abbrev main_c_3 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_c_4 : Ref sig .tc := ⟨.hbm, 37, rfl⟩
abbrev main_v25 : Ref sig .tc := ⟨.hbm, 38, rfl⟩
abbrev main_v26 : Ref sig .tc := ⟨.hbm, 39, rfl⟩
abbrev main_c_5 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_c_6 : Ref sig .tc := ⟨.hbm, 47, rfl⟩
abbrev main_v33 : Ref sig .tc := ⟨.hbm, 48, rfl⟩
abbrev main_v34 : Ref sig .tc := ⟨.hbm, 49, rfl⟩
abbrev main_c_7 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_cst_8 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x256 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  slices_S800000x2_S800000x1_0_0 : S800000x2.Slices ![0, 0] S800000x1
  shapeCasts_S800000x1_S800000 : S800000x1.ShapeCasts S800000
  slices_S800000x2_S800000x1_0_1 : S800000x2.Slices ![0, 1] S800000x1
  concatenates_S800000_S50000_S850000_d0 : Shape.Concatenates [S800000, S50000] S850000 0
  transposes_S256x128_S128x256_1_0 : S256x128.Transposes [1, 0] S128x256
  bitsLt_bf16_f32 : FTy.bits .bf16 < FTy.bits .f32
  inb_S5000x128_S5000x128_0_0 : ∀ a, (![0, 0] : Fin 2 → Nat) a + S5000x128.size a ≤ S5000x128.size a
  h_S5000x128 : 0 < S5000x128.numel
  inb_S128x256_S128x256_0_0 : ∀ a, (![0, 0] : Fin 2 → Nat) a + S128x256.size a ≤ S128x256.size a
  h_S128x256 : 0 < S128x256.numel
  shapeCasts_S128x256_S128x256 : S128x256.ShapeCasts S128x256
  inb_S5000x256_S5000x256_0_0 : ∀ a, (![0, 0] : Fin 2 → Nat) a + S5000x256.size a ≤ S5000x256.size a
  h_S5000x256 : 0 < S5000x256.numel
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x256_0_1 : S850000x1.BroadcastsInDim S850000x256 (![0, 1] : Fin 2 → Fin S850000x256.rank)
  bcast_S_S50000x256 : S_.BroadcastsInDim S50000x256 (![] : Fin 0 → Fin S50000x256.rank)
  shapeCasts_S256_S1x256 : S256.ShapeCasts S1x256
  shapeCasts_S5000x256_S5000x256 : S5000x256.ShapeCasts S5000x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S5000x256 : S1x256.Broadcasts S5000x256
  dot_S5000x128_S128x256_S5000x256_1_0_0_1_n_n_wf : DotDims.WF S5000x128 S128x256 S5000x256 [1] [0] [0] [1] [] []
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  gather_S50000x256_S850000x1_S850000x256_1_0_n_n_0_1_1256_wf : GatherDims.WF S50000x256 S850000x1 S850000x256 [1] [0] [] [0] [] 1 ![1, 256]
  scatter_S50000x256_S850000x1_S850000x256_1_0_0_1_wf : ScatterDims.WF S50000x256 S850000x1 S850000x256 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x256.size a ≤ S128x256.size a
  hwx0_1 : ∀ i : grid0.Coords, EltTy.bits .bf16 = 32 ∨ (Rect.block (s := S128x256) S128x256.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x256.size a ≤ S50000x256.size a
  hwx0_2 : ∀ i : grid0.Coords, EltTy.bits .f32 = 32 ∨ (Rect.block (s := S50000x256) S5000x256.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x256.size a ≤ S50000x256.size a
  hwx1_0 : ∀ i : grid1.Coords, EltTy.bits .f32 = 32 ∨ (Rect.block (s := S50000x256) S5000x256.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x256.size a ≤ S1x256.size a
  hwx1_1 : ∀ i : grid1.Coords, EltTy.bits .f32 = 32 ∨ (Rect.block (s := S1x256) S1x256.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x256.size a ≤ S50000x256.size a
  hwx1_2 : ∀ i : grid1.Coords, EltTy.bits .f32 = 32 ∨ (Rect.block (s := S50000x256) S5000x256.size (cc1_transform_2 i) (hinb1_2 i)).WholeWords (EltTy.packing .f32)

variable [Facts₀]

def dot_S5000x128_S128x256_S5000x256_1_0_0_1_n_n : DotDims S5000x128 S128x256 S5000x256 where
  lhsContracting := [1]
  rhsContracting := [0]
  lhsNonContracting := [0]
  rhsNonContracting := [1]
  lhsBatch := []
  rhsBatch := []
  wf := dot_S5000x128_S128x256_S5000x256_1_0_0_1_n_n_wf
def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def gather_S50000x256_S850000x1_S850000x256_1_0_n_n_0_1_1256 : GatherDims S50000x256 S850000x1 S850000x256 where
  offsetDims := [1]
  collapsedSliceDims := [0]
  operandBatchingDims := []
  startIndicesBatchingDims := []
  startIndexMap := [0]
  indexVectorDim := 1
  sliceSizes := ![1, 256]
  wf := gather_S50000x256_S850000x1_S850000x256_1_0_n_n_0_1_1256_wf
def scatter_S50000x256_S850000x1_S850000x256_1_0_0_1 : ScatterDims S50000x256 S850000x1 S850000x256 where
  updateWindowDims := [1]
  insertedWindowDims := [0]
  scatterDimsToOperandDims := [0]
  indexVectorDim := 1
  wf := scatter_S50000x256_S850000x1_S850000x256_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v8) S128x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v9) S5000x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v45) S5000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v46) S1x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v47) S5000x256.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S50000x128 : Shape := ⟨2, ![50000, 128]⟩
abbrev S800000x2 : Shape := ⟨2, ![800000, 2]⟩
abbrev S256x128 : Shape := ⟨2, ![256, 128]⟩
abbrev S256 : Shape := ⟨1, ![256]⟩
abbrev S800000x1 : Shape := ⟨2, ![800000, 1]⟩
abbrev S800000 : Shape := ⟨1, ![800000]⟩
abbrev S50000 : Shape := ⟨1, ![50000]⟩
abbrev S850000 : Shape := ⟨1, ![850000]⟩
abbrev S128x256 : Shape := ⟨2, ![128, 256]⟩
abbrev S50000x256 : Shape := ⟨2, ![50000, 256]⟩
abbrev S_ : Shape := ⟨0, ![]⟩
abbrev S850000x1 : Shape := ⟨2, ![850000, 1]⟩
abbrev S850000x256 : Shape := ⟨2, ![850000, 256]⟩
abbrev S1x256 : Shape := ⟨2, ![1, 256]⟩

abbrev nBuf : Space → Nat
  | .hbm => 68
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S800000x2, .i32⟩
  | .hbm, ⟨2, _⟩ => ⟨S256x128, .f32⟩
  | .hbm, ⟨3, _⟩ => ⟨S256, .f32⟩
  | .hbm, ⟨4, _⟩ => ⟨S800000x1, .i32⟩
  | .hbm, ⟨5, _⟩ => ⟨S800000, .i32⟩
  | .hbm, ⟨6, _⟩ => ⟨S800000x1, .i32⟩
  | .hbm, ⟨7, _⟩ => ⟨S800000, .i32⟩
  | .hbm, ⟨8, _⟩ => ⟨S50000, .i32⟩
  | .hbm, ⟨9, _⟩ => ⟨S850000, .i32⟩
  | .hbm, ⟨10, _⟩ => ⟨S850000, .i32⟩
  | .hbm, ⟨11, _⟩ => ⟨S128x256, .f32⟩
  | .hbm, ⟨12, _⟩ => ⟨S50000x256, .f32⟩
  | .hbm, ⟨13, _⟩ => ⟨S_, .f32⟩
  | .hbm, ⟨14, _⟩ => ⟨S850000, .f32⟩
  | .hbm, ⟨15, _⟩ => ⟨S_, .f32⟩
  | .hbm, ⟨16, _⟩ => ⟨S50000, .f32⟩
  | .hbm, ⟨17, _⟩ => ⟨S850000x1, .i32⟩
  | .hbm, ⟨18, _⟩ => ⟨S50000, .f32⟩
  | .hbm, ⟨19, _⟩ => ⟨S_, .f32⟩
  | .hbm, ⟨20, _⟩ => ⟨S50000, .f32⟩
  | .hbm, ⟨21, _⟩ => ⟨S50000, .i1⟩
  | .hbm, ⟨22, _⟩ => ⟨S50000, .f32⟩
  | .hbm, ⟨23, _⟩ => ⟨S_, .f32⟩
  | .hbm, ⟨24, _⟩ => ⟨S_, .f32⟩
  | .hbm, ⟨25, _⟩ => ⟨S50000, .f32⟩
  | .hbm, ⟨26, _⟩ => ⟨S50000, .f32⟩
  | .hbm, ⟨27, _⟩ => ⟨S_, .i32⟩
  | .hbm, ⟨28, _⟩ => ⟨S850000, .i32⟩
  | .hbm, ⟨29, _⟩ => ⟨S850000, .i1⟩
  | .hbm, ⟨30, _⟩ => ⟨S_, .i32⟩
  | .hbm, ⟨31, _⟩ => ⟨S850000, .i32⟩
  | .hbm, ⟨32, _⟩ => ⟨S850000, .i32⟩
  | .hbm, ⟨33, _⟩ => ⟨S850000, .i32⟩
  | .hbm, ⟨34, _⟩ => ⟨S850000x1, .i32⟩
  | .hbm, ⟨35, _⟩ => ⟨S850000, .f32⟩
  | .hbm, ⟨36, _⟩ => ⟨S_, .i32⟩
  | .hbm, ⟨37, _⟩ => ⟨S850000, .i32⟩
  | .hbm, ⟨38, _⟩ => ⟨S850000, .i1⟩
  | .hbm, ⟨39, _⟩ => ⟨S_, .i32⟩
  | .hbm, ⟨40, _⟩ => ⟨S850000, .i32⟩
  | .hbm, ⟨41, _⟩ => ⟨S850000, .i32⟩
  | .hbm, ⟨42, _⟩ => ⟨S850000, .i32⟩
  | .hbm, ⟨43, _⟩ => ⟨S850000x1, .i32⟩
  | .hbm, ⟨44, _⟩ => ⟨S850000, .f32⟩
  | .hbm, ⟨45, _⟩ => ⟨S850000, .f32⟩
  | .hbm, ⟨46, _⟩ => ⟨S_, .i32⟩
  | .hbm, ⟨47, _⟩ => ⟨S850000, .i32⟩
  | .hbm, ⟨48, _⟩ => ⟨S850000, .i1⟩
  | .hbm, ⟨49, _⟩ => ⟨S_, .i32⟩
  | .hbm, ⟨50, _⟩ => ⟨S850000, .i32⟩
  | .hbm, ⟨51, _⟩ => ⟨S850000, .i32⟩
  | .hbm, ⟨52, _⟩ => ⟨S850000, .i32⟩
  | .hbm, ⟨53, _⟩ => ⟨S850000x1, .i32⟩
  | .hbm, ⟨54, _⟩ => ⟨S850000x256, .f32⟩
  | .hbm, ⟨55, _⟩ => ⟨S850000x1, .f32⟩
  | .hbm, ⟨56, _⟩ => ⟨S850000x256, .f32⟩
  | .hbm, ⟨57, _⟩ => ⟨S850000x256, .f32⟩
  | .hbm, ⟨58, _⟩ => ⟨S_, .f32⟩
  | .hbm, ⟨59, _⟩ => ⟨S50000x256, .f32⟩
  | .hbm, ⟨60, _⟩ => ⟨S850000x1, .i32⟩
  | .hbm, ⟨61, _⟩ => ⟨S50000x256, .f32⟩
  | .hbm, ⟨62, _⟩ => ⟨S1x256, .f32⟩
  | .hbm, ⟨63, _⟩ => ⟨S50000x256, .f32⟩
  | .hbm, ⟨64, _⟩ => ⟨S50000x256, .f32⟩
  | .hbm, ⟨65, _⟩ => ⟨S_, .f32⟩
  | .hbm, ⟨66, _⟩ => ⟨S50000x256, .f32⟩
  | .hbm, ⟨67, _⟩ => ⟨S50000x256, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst : Ref sig .tc := ⟨.hbm, 13, rfl⟩
abbrev main_v9 : Ref sig .tc := ⟨.hbm, 14, rfl⟩
abbrev main_cst_0 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst_1 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v16 : Ref sig .tc := ⟨.hbm, 26, rfl⟩
abbrev main_c : Ref sig .tc := ⟨.hbm, 27, rfl⟩
abbrev main_v17 : Ref sig .tc := ⟨.hbm, 28, rfl⟩
abbrev main_v18 : Ref sig .tc := ⟨.hbm, 29, rfl⟩
abbrev main_c_3 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_c_4 : Ref sig .tc := ⟨.hbm, 36, rfl⟩
abbrev main_v24 : Ref sig .tc := ⟨.hbm, 37, rfl⟩
abbrev main_v25 : Ref sig .tc := ⟨.hbm, 38, rfl⟩
abbrev main_c_5 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_c_6 : Ref sig .tc := ⟨.hbm, 46, rfl⟩
abbrev main_v32 : Ref sig .tc := ⟨.hbm, 47, rfl⟩
abbrev main_v33 : Ref sig .tc := ⟨.hbm, 48, rfl⟩
abbrev main_c_7 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_cst_8 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_call1_cst : Ref sig .tc := ⟨.hbm, 65, rfl⟩
abbrev main_call1_v0 : Ref sig .tc := ⟨.hbm, 66, rfl⟩
abbrev main_v48 : Ref sig .tc := ⟨.hbm, 67, rfl⟩

abbrev nD : Nat := 1
abbrev τ : Topo := Topo.v7x

variable {F : FTy → Type} [FloatOps F]

class Facts₀ : Prop where
  slices_S800000x2_S800000x1_0_0 : S800000x2.Slices ![0, 0] S800000x1
  shapeCasts_S800000x1_S800000 : S800000x1.ShapeCasts S800000
  slices_S800000x2_S800000x1_0_1 : S800000x2.Slices ![0, 1] S800000x1
  concatenates_S800000_S50000_S850000_d0 : Shape.Concatenates [S800000, S50000] S850000 0
  transposes_S256x128_S128x256_1_0 : S256x128.Transposes [1, 0] S128x256
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x256_0_1 : S850000x1.BroadcastsInDim S850000x256 (![0, 1] : Fin 2 → Fin S850000x256.rank)
  bcast_S_S50000x256 : S_.BroadcastsInDim S50000x256 (![] : Fin 0 → Fin S50000x256.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  dot_S50000x128_S128x256_S50000x256_1_0_0_1_n_n_wf : DotDims.WF S50000x128 S128x256 S50000x256 [1] [0] [0] [1] [] []
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  gather_S50000x256_S850000x1_S850000x256_1_0_n_n_0_1_1256_wf : GatherDims.WF S50000x256 S850000x1 S850000x256 [1] [0] [] [0] [] 1 ![1, 256]
  scatter_S50000x256_S850000x1_S850000x256_1_0_0_1_wf : ScatterDims.WF S50000x256 S850000x1 S850000x256 [1] [0] [0] 1

variable [Facts₀]

def dot_S50000x128_S128x256_S50000x256_1_0_0_1_n_n : DotDims S50000x128 S128x256 S50000x256 where
  lhsContracting := [1]
  rhsContracting := [0]
  lhsNonContracting := [0]
  rhsNonContracting := [1]
  lhsBatch := []
  rhsBatch := []
  wf := dot_S50000x128_S128x256_S50000x256_1_0_0_1_n_n_wf
def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def gather_S50000x256_S850000x1_S850000x256_1_0_n_n_0_1_1256 : GatherDims S50000x256 S850000x1 S850000x256 where
  offsetDims := [1]
  collapsedSliceDims := [0]
  operandBatchingDims := []
  startIndicesBatchingDims := []
  startIndexMap := [0]
  indexVectorDim := 1
  sliceSizes := ![1, 256]
  wf := gather_S50000x256_S850000x1_S850000x256_1_0_n_n_0_1_1256_wf
def scatter_S50000x256_S850000x1_S850000x256_1_0_0_1 : ScatterDims S50000x256 S850000x1 S850000x256 where
  updateWindowDims := [1]
  insertedWindowDims := [0]
  scatterDimsToOperandDims := [0]
  indexVectorDim := 1
  wf := scatter_S50000x256_S850000x1_S850000x256_1_0_0_1_wf

class Facts : Prop extends Facts₀ where

variable [Facts]
-- ==== Proof.HostChain.lean ====
/-
  The part of the graph convolution that both programs compute with the same host operations, as functions of
  the projected features `h` and the edge list, for any float family.

  From the edge list `e : [800000, 2]` both programs form the two endpoint vectors of length 850000: a column of
  `e` followed by the self loops `0, 1, …, 49999`. With `s` the sources and `d` the destinations,
    deg   = ones scatter-added at `d` into zeros                       (in-degree, self loop included)
    dinv  = deg^(-1/2) where deg > 0, else 0
    norm  = dinv[s] · dinv[d]                                          (one weight per edge)
    agg   = (h[s] · norm, row by row) scatter-added at `d` into zeros  (`aggregate`)
  every index vector read with numpy's wrap of a negative entry (`+ 50000`). The last step adds the bias row to
  every row and clamps at zero (`biasRelu`).

  The certificate never opens these functions: each program is shown to apply them to equal arguments.
-/
import proofs.«136635_j88837103550989_1_alg».proof.Proof.Gen.ReferenceIdeal

noncomputable section

namespace Cert.Bridge

open Idealize.ShloMosaic Cert.ReferenceIdeal Cert.ReferenceIdeal.Facts₀

variable {F : FTy → Type} [FloatOps F]

/-- Column 0 of the edge list (the sources), then the self loops. -/
def srcFull (e : (⟨S800000x2, .i32⟩ : BufTy).Contents (Elt F)) : (⟨S850000, .i32⟩ : BufTy).Contents (Elt F) :=
  concatenate S850000 0 [⟨S800000, (shapeCast _ (extractStridedSlice S800000x1 ![0, 0] e slices_S800000x2_S800000x1_0_0) shapeCasts_S800000x1_S800000)⟩, ⟨S50000, (iotaInDim S50000 32 0)⟩] concatenates_S800000_S50000_S850000_d0

/-- Column 1 of the edge list (the destinations), then the self loops. -/
def dstFull (e : (⟨S800000x2, .i32⟩ : BufTy).Contents (Elt F)) : (⟨S850000, .i32⟩ : BufTy).Contents (Elt F) :=
  concatenate S850000 0 [⟨S800000, (shapeCast _ (extractStridedSlice S800000x1 ![0, 1] e slices_S800000x2_S800000x1_0_1) shapeCasts_S800000x1_S800000)⟩, ⟨S50000, (iotaInDim S50000 32 0)⟩] concatenates_S800000_S50000_S850000_d0

/-- An index vector with its negative entries wrapped by `+ 50000`, laid out as the column a gather takes. -/
def wrapped (s : (⟨S850000, .i32⟩ : BufTy).Contents (Elt F)) : (⟨S850000x1, .i32⟩ : BufTy).Contents (Elt F) :=
  broadcastInDim S850000x1 ![0] bcast_S850000_S850000x1_0 (select (cmpi .slt s (broadcastInDim S850000 ![] bcast_S_S850000 (constantI S_ 32 0#32))) (addi s (broadcastInDim S850000 ![] bcast_S_S850000 (constantI S_ 32 50000#32))) s)

/-- The in-degree of every node, self loop included: a one for every edge, added at the edge's destination. -/
def degree (d : (⟨S850000, .i32⟩ : BufTy).Contents (Elt F)) : (⟨S50000, .f32⟩ : BufTy).Contents (Elt F) :=
  Host.scatterAdd scatter_S50000_S850000x1_S850000_n_0_0_1 (broadcastInDim S50000 ![] bcast_S_S50000 (constant (F := F) S_ .f32 0x00000000#32)) (broadcastInDim S850000x1 ![0] bcast_S850000_S850000x1_0 d) (broadcastInDim S850000 ![] bcast_S_S850000 (constant (F := F) S_ .f32 0x3F800000#32))

/-- `deg^(-1/2)` where the degree is positive, zero elsewhere. -/
def invSqrtDeg (d : (⟨S850000, .i32⟩ : BufTy).Contents (Elt F)) : (⟨S50000, .f32⟩ : BufTy).Contents (Elt F) :=
  select (cmpf (F := F) .ogt (degree d) (broadcastInDim S50000 ![] bcast_S_S50000 (constant (F := F) S_ .f32 0x00000000#32))) (Host.rsqrt (degree d)) (broadcastInDim S50000 ![] bcast_S_S50000 (id (constant (F := F) S_ .f32 0x00000000#32)))

/-- The symmetric normalisation, one weight per edge: `dinv[src] · dinv[dst]`. -/
def edgeNorm (s d : (⟨S850000, .i32⟩ : BufTy).Contents (Elt F)) : (⟨S850000, .f32⟩ : BufTy).Contents (Elt F) :=
  mulf (Host.gather gather_S50000_S850000x1_S850000_n_0_n_n_0_1_1 (invSqrtDeg d) (wrapped s)) (Host.gather gather_S50000_S850000x1_S850000_n_0_n_n_0_1_1 (invSqrtDeg d) (wrapped d))

/-- The aggregation: row `src` of `h` times the edge's weight, added at row `dst`, over all edges. -/
def aggregate (h : (⟨S50000x256, .f32⟩ : BufTy).Contents (Elt F)) (s d : (⟨S850000, .i32⟩ : BufTy).Contents (Elt F)) : (⟨S50000x256, .f32⟩ : BufTy).Contents (Elt F) :=
  Host.scatterAdd scatter_S50000x256_S850000x1_S850000x256_1_0_0_1 (broadcastInDim S50000x256 ![] bcast_S_S50000x256 (constant (F := F) S_ .f32 0x00000000#32)) (broadcastInDim S850000x1 ![0] bcast_S850000_S850000x1_0 d) (mulf (Host.gather gather_S50000x256_S850000x1_S850000x256_1_0_n_n_0_1_1256 h (wrapped s)) (broadcastInDim S850000x256 ![0, 1] bcast_S850000x1_S850000x256_0_1 (broadcastInDim S850000x1 ![0] bcast_S850000_S850000x1_0 (edgeNorm s d))))

/-- The epilogue in the host's spelling: the bias as a row, laid over every row, added; then the maximum with zero. -/
def biasRelu (a : (⟨S50000x256, .f32⟩ : BufTy).Contents (Elt F)) (b : (⟨S256, .f32⟩ : BufTy).Contents (Elt F)) : (⟨S50000x256, .f32⟩ : BufTy).Contents (Elt F) :=
  maximumf (addf a (broadcastInDim S50000x256 ![0, 1] bcast_S1x256_S50000x256_0_1 (broadcastInDim S1x256 ![1] bcast_S256_S1x256_1 b))) (broadcastInDim S50000x256 ![] bcast_S_S50000x256 (constant (F := F) S_ .f32 0x00000000#32))

end Cert.Bridge

end
-- ==== Proof.RefValue.lean ====
/-
  The reference's result as the shared host functions of its one matrix product.

  The reference computes `h = x · Wᵀ` by one `dot_general` over the transposed weight, and then exactly the
  operations named in the host-chain module: its run's result term unfolds to
  `biasRelu (aggregate h (srcFull e) (dstFull e)) b`, symbol for symbol.
-/
import proofs.«136635_j88837103550989_1_alg».proof.Proof.RefRunPatched
import proofs.«136635_j88837103550989_1_alg».proof.Proof.HostChain

set_option maxRecDepth 16384

noncomputable section

namespace Cert.Bridge

open Idealize.ShloMosaic Idealize.ShloMosaic.TcCoe Idealize.SL.Sem
open Cert.ReferenceIdeal Cert.ReferenceIdeal.Facts₀

variable {F : FTy → Type} [FloatOps F]

/-- The reference's projected features: one product of `x` with the transposed weight. -/
def refFeatures (x : (⟨S50000x128, .f32⟩ : BufTy).Contents (Elt F)) (w : (⟨S256x128, .f32⟩ : BufTy).Contents (Elt F)) :
    (⟨S50000x256, .f32⟩ : BufTy).Contents (Elt F) :=
  Host.dotGeneral dot_S50000x128_S128x256_S50000x256_1_0_0_1_n_n none x (transpose S128x256 [1, 0] w transposes_S256x128_S128x256_1_0)

set_option maxHeartbeats 4000000 in
/-- The run's result term, folded into the named functions. -/
theorem ref_result (m : (ℓ : Loc nD τ sig) → Buf (Elt F) ℓ) (c : Dev nD) :
    Cert.ReferenceIdeal.RunP.res_main_v48 (F := F) m c
      = biasRelu (aggregate (refFeatures (m ((c.tc : Thread nD τ).loc main_arg0)) (m ((c.tc : Thread nD τ).loc main_arg2)))
          (srcFull (m ((c.tc : Thread nD τ).loc main_arg1))) (dstFull (m ((c.tc : Thread nD τ).loc main_arg1))))
          (m ((c.tc : Thread nD τ).loc main_arg3)) := by
  unfold Cert.ReferenceIdeal.RunP.res_main_v48 biasRelu aggregate edgeNorm invSqrtDeg degree wrapped srcFull dstFull refFeatures
  rfl

end Cert.Bridge

end
-- ==== Proof.KernelHost.lean ====
/-
  The host operations of the kernel's program, read at the boundaries of its two kernel regions.

  Before the first region the host forms the two endpoint vectors from the edge list and the transposed weight
  (narrowed to the kernel's operand format). Between the regions it applies, to the first region's output `h`, the
  degree normalisation and the gather / scatter-add aggregation — the very operations of the host-chain module — and
  lays the bias out as a 1 × 256 row. No host operation writes an argument array.
-/
import proofs.«136635_j88837103550989_1_alg».proof.Proof.Gen.KernelIdeal.Frame
import proofs.«136635_j88837103550989_1_alg».proof.Proof.HostChain
import Idealize.ShloMosaic.Lib.StableHlo.Run

set_option maxRecDepth 16384

noncomputable section

namespace Cert.KernelIdeal.HostSide

open Cert.KernelIdeal Cert.KernelIdeal.Gen
open Idealize.ShloMosaic Idealize.ShloMosaic.TcCoe Idealize.SL.Sem Idealize.ShloMosaic.StableHlo

variable {F : FTy → Type} [FloatOps F]
variable (m : (ℓ : Loc nD τ sig) → Buf (Elt F) ℓ) (ρ : Dev nD → PrngReg)

/-! ## At the first region's entry -/

/-- The node features are as launched. -/
theorem features_at_entry (c : Dev nD) : V1 m ρ c main_arg0 = m ((c : Thread nD τ).loc main_arg0) := by
  show StableHlo.after hostOps0 (W0 m ρ c) (Proc.devRef .tc main_arg0) = _
  simp only [hostOps0]
  after_results

/-- The weight operand is the launched weight transposed, in the kernel's operand format. -/
theorem weight_at_entry (c : Dev nD) :
    V1 m ρ c main_v8 = truncf .bf16 (transpose S128x256 [1, 0] (m ((c : Thread nD τ).loc main_arg2)) Facts₀.transposes_S256x128_S128x256_1_0) Facts₀.bitsLt_bf16_f32 := by
  show StableHlo.after hostOps0 (W0 m ρ c) (Proc.devRef .tc main_v8) = _
  simp only [hostOps0]
  after_results

/-- The sources with the self loops. -/
theorem src_at_entry (c : Dev nD) :
    W1 m ρ c (Proc.devRef .tc main_v5) = Cert.Bridge.srcFull (m ((c : Thread nD τ).loc main_arg1)) := by
  show StableHlo.after hostOps0 (W0 m ρ c) (Proc.devRef .tc main_v5) = _
  simp only [hostOps0]
  after_results
  rfl

/-- The destinations with the self loops. -/
theorem dst_at_entry (c : Dev nD) :
    W1 m ρ c (Proc.devRef .tc main_v6) = Cert.Bridge.dstFull (m ((c : Thread nD τ).loc main_arg1)) := by
  show StableHlo.after hostOps0 (W0 m ρ c) (Proc.devRef .tc main_v6) = _
  simp only [hostOps0]
  after_results
  rfl

/-- The bias is as launched. -/
theorem bias_at_entry (c : Dev nD) : W1 m ρ c (Proc.devRef .tc main_arg3) = m ((c : Thread nD τ).loc main_arg3) := by
  show StableHlo.after hostOps0 (W0 m ρ c) (Proc.devRef .tc main_arg3) = _
  simp only [hostOps0]
  after_results

/-! ## At the second region's entry, from the first region's exit -/

set_option maxHeartbeats 4000000 in
/-- The aggregated features: the shared aggregation of the first region's output and the two endpoint vectors. -/
theorem aggregate_at_entry (c : Dev nD) :
    W5 m ρ c (Proc.devRef .tc main_v45)
      = Cert.Bridge.aggregate (W2 m ρ c (Proc.devRef .tc main_v9)) (W2 m ρ c (Proc.devRef .tc main_v5)) (W2 m ρ c (Proc.devRef .tc main_v6)) := by
  show StableHlo.after hostOps1_2 (StableHlo.after hostOps1_1 (StableHlo.after hostOps1 (W2 m ρ c))) (Proc.devRef .tc main_v45) = _
  simp only [hostOps1, hostOps1_1, hostOps1_2]
  after_results_simp
  rfl

/-- The bias as a 1 × 256 row. -/
theorem biasrow_at_entry (c : Dev nD) :
    W5 m ρ c (Proc.devRef .tc main_v46) = shapeCast _ (W2 m ρ c (Proc.devRef .tc main_arg3)) Facts₀.shapeCasts_S256_S1x256 := by
  show StableHlo.after hostOps1_2 (StableHlo.after hostOps1_1 (StableHlo.after hostOps1 (W2 m ρ c))) (Proc.devRef .tc main_v46) = _
  simp only [hostOps1, hostOps1_1, hostOps1_2]
  after_results_simp
  rfl

end Cert.KernelIdeal.HostSide

end
-- ==== Proof.LibKeepdims.lean ====
/-
  Keepdims column forms and row-sum normalisation, read at an index (extended reals, the ideal instance).

  A row sum kept as a column — `[a] → [a, 1]` by a shape cast (a kernel) or by a `broadcast_in_dim` along axis 0 (the
  host) — and that column laid back over the columns of an `[a, b]` matrix — by a vector broadcast (a kernel) or a
  `broadcast_in_dim` along axes 0 and 1 (the host) — read, at `(i, j)`, the vector's entry `i`. With them, "divide every
  entry of a matrix by the sum of its row" is read at `(r, k)` as `x (r, k) / ∑ k', x (r, k')` in both spellings, and a plain
  `m × k` by `k × n` product accumulated into a zero splat (a kernel) or with no accumulator (the host) as
  `∑ c, A (a, c) * B (c, b)`.
-/
import Idealize.ShloMosaic.PureOps.Ideal.Laws
import Idealize.ShloMosaic.Lib.ValueIdx
import Idealize.ShloMosaic.Lib.Pipeline.Value
import Idealize.ShloMosaic.Lib.KernelVsHost
import Idealize.ShloMosaic.Lib.StackMember

noncomputable section

namespace Cert.LibKeepdims

open Idealize.ShloMosaic Idealize.ShloMosaic.ValueIdx

variable {α : Type}

/-- Over a rank-2 shape reduced along axis 1, the source index above row `r` with coordinate `k` on the dropped axis is `(r, k)`. -/
theorem lift_ix1 {a b : ℕ} (h : (⟨2, ![a, b]⟩ : Shape).Reduces [(1 : Fin 2)] ⟨1, ![a]⟩) (r : Fin a) (k : Fin b) :
    h.lift (ix1 r) k = ix2 r k :=
  funext fun c => Fin.ext (match c with | ⟨0, _⟩ => rfl | ⟨1, _⟩ => rfl)

/-- An `[a]` vector cast to the column `[a, 1]` reads, at `(i, u)`, the vector at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast over the columns of `[a, b]` reads, at `(p, c)`, the column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The host's `broadcast_in_dim` of an `[a]` vector along axis 0 of `[a, 1]` reads, at `(i, u)`, the vector at `i`. -/
theorem broadcastInDim_a_a1_apply {a : ℕ} (dims : Fin 1 → Fin 2) (hd : dims 0 = 0)
    (h : (⟨1, ![a]⟩ : Shape).BroadcastsInDim ⟨2, ![a, 1]⟩ dims) (x : (⟨1, ![a]⟩ : Shape).Idx → α)
    (i : Fin a) (u : Fin 1) : broadcastInDim ⟨2, ![a, 1]⟩ dims h x (ix2 i u) = x (ix1 i) := by
  refine broadcastInDim_apply dims h x (ix2 i u) (ix1 i) fun ax => ?_
  match ax with
  | ⟨0, _⟩ =>
    show i.val = if a = 1 then 0 else ((ix2 i u : (⟨2, ![a, 1]⟩ : Shape).Idx) (dims 0)).val
    rw [hd]
    split
    · have := i.isLt; omega
    · rfl

/-- The host's `broadcast_in_dim` of a column `[a, 1]` along axes 0 and 1 of `[a, b]` reads, at `(p, c)`, the column at row `p`. -/
theorem broadcastInDim_a1_ab_apply {a b : ℕ} (dims : Fin 2 → Fin 2) (hd0 : dims 0 = 0) (hd1 : dims 1 = 1)
    (h : (⟨2, ![a, 1]⟩ : Shape).BroadcastsInDim ⟨2, ![a, b]⟩ dims) (v : (⟨2, ![a, 1]⟩ : Shape).Idx → α)
    (p : Fin a) (c : Fin b) : broadcastInDim ⟨2, ![a, b]⟩ dims h v (ix2 p c) = v (ix2 p (0 : Fin 1)) := by
  refine broadcastInDim_apply dims h v (ix2 p c) (ix2 p (0 : Fin 1)) fun ax => ?_
  match ax with
  | ⟨0, _⟩ =>
    show p.val = if a = 1 then 0 else ((ix2 p c : (⟨2, ![a, b]⟩ : Shape).Idx) (dims 0)).val
    rw [hd0]
    split
    · have := p.isLt; omega
    · rfl
  | ⟨1, _⟩ => rfl

/-! ## Every entry divided by the sum of its row -/

/-- A kernel's spelling: the lane sum over axis 1 (accumulator the neutral zero), cast to a column, broadcast back over the
    columns, and the quotient — at `(r, k)` it is `y (r, k) / ∑ k', y (r, k')`. -/
theorem divRowSum_kernel_apply {a b : ℕ} (y : FVec Ideal ⟨2, ![a, b]⟩ .f32)
    (h : (⟨2, ![a, b]⟩ : Shape).Reduces [(1 : Fin 2)] ⟨1, ![a]⟩) (hφ : FKind.Formats .f32)
    (hacc : (0x00000000#32 : BitVec (FTy.bits .f32)) = FKind.add.neutral .f32 hφ)
    (hc : (⟨1, ![a]⟩ : Shape).ShapeCasts ⟨2, ![a, 1]⟩) (hb : (⟨2, ![a, 1]⟩ : Shape).Broadcasts ⟨2, ![a, b]⟩)
    (r : Fin a) (k : Fin b) :
    divf y (broadcastTo ⟨2, ![a, b]⟩ (shapeCast ⟨2, ![a, 1]⟩ (multiReduction .add [(1 : Fin 2)] ⟨1, ![a]⟩ y 0x00000000#32 h hφ hacc) hc) hb) (ix2 r k)
      = Ideal.div (y (ix2 r k)) (∑ k' : Fin b, y (ix2 r k')) := by
  refine congrArg (Ideal.div (y (ix2 r k))) ?_
  refine (broadcastTo_a1_ab_apply _ hb r k).trans ?_
  refine (shapeCast_a_a1_apply _ hc r 0).trans ?_
  refine (Ideal.multiReduction_add_single y _ h hφ hacc (ix1 r)).trans ?_
  exact Finset.sum_congr rfl fun k' _ => congrArg y (lift_ix1 h r k')

/-- The host's spelling: `stablehlo.reduce` with add over axis 1 from an initial zero, `broadcast_in_dim` to a column and then
    over the matrix, and `stablehlo.divide` — the same quotient at `(r, k)`. -/
theorem divRowSum_host_apply {a b : ℕ} {u : Shape} (y : FVec Ideal ⟨2, ![a, b]⟩ .f32)
    (h' : (⟨2, ![a, b]⟩ : Shape).ReducesTo [(1 : Fin 2)] ⟨1, ![a]⟩) (h : (⟨2, ![a, b]⟩ : Shape).Reduces [(1 : Fin 2)] ⟨1, ![a]⟩)
    (hu : 0 < u.numel)
    (d1 : Fin 1 → Fin 2) (hd1 : d1 0 = 0) (hb1 : (⟨1, ![a]⟩ : Shape).BroadcastsInDim ⟨2, ![a, 1]⟩ d1)
    (d2 : Fin 2 → Fin 2) (hd20 : d2 0 = 0) (hd21 : d2 1 = 1) (hb2 : (⟨2, ![a, 1]⟩ : Shape).BroadcastsInDim ⟨2, ![a, b]⟩ d2)
    (r : Fin a) (k : Fin b) :
    Host.divf y (broadcastInDim ⟨2, ![a, b]⟩ d2 hb2 (broadcastInDim ⟨2, ![a, 1]⟩ d1 hb1
        (Host.reduceAdd y (constant (F := Ideal) u .f32 0x00000000#32) h' hu))) (ix2 r k)
      = Ideal.div (y (ix2 r k)) (∑ k' : Fin b, y (ix2 r k')) := by
  refine congrArg (Ideal.div (y (ix2 r k))) ?_
  refine (broadcastInDim_a1_ab_apply d2 hd20 hd21 hb2 _ r k).trans ?_
  refine (broadcastInDim_a_a1_apply d1 hd1 hb1 _ r 0).trans ?_
  show Ideal.hostReduceAdd h' y (Ideal.ofBits .f32 0x00000000#32) (ix1 r) = _
  rw [Ideal.hostReduceAdd_single h' h, Ideal.ofBits_zero_f32, zero_add]
  exact Finset.sum_congr rfl fun k' _ => congrArg y (lift_ix1 h r k')

/-! ## A plain matrix product at an index -/

/-- The host's `dot_general` with the plain dimension numbers (contract axis 1 of the left with axis 0 of the right), read at `(p, q)`. -/
theorem dotGeneral_plain_apply {m k n : ℕ} {φ₁ φ₂ : FTy} (d : DotDims ⟨2, ![m, k]⟩ ⟨2, ![k, n]⟩ ⟨2, ![m, n]⟩)
    (hd : d = DotDims.plain m k n) (prec : Option ContractPrecision)
    (A : FVec Ideal ⟨2, ![m, k]⟩ φ₁) (B : FVec Ideal ⟨2, ![k, n]⟩ φ₂) (p : Fin m) (q : Fin n) :
    Host.dotGeneral d prec A B (ix2 p q) = ∑ c : Fin k, A (ix2 p c) * B (ix2 c q) := by
  subst hd
  exact StackMember.dotGeneral_plain_apply prec A B p q

/-- A kernel's `tpu.matmul` with the plain dimension numbers into a zero splat, read at `(p, q)`: the same sum. -/
theorem matmul_plain_apply {m k n : ℕ} {φ₁ φ₂ : FTy} (d : DotDims ⟨2, ![m, k]⟩ ⟨2, ![k, n]⟩ ⟨2, ![m, n]⟩)
    (hd : d = DotDims.plain m k n) (prec : Option ContractPrecision)
    (A : FVec Ideal ⟨2, ![m, k]⟩ φ₁) (B : FVec Ideal ⟨2, ![k, n]⟩ φ₂) (p : Fin m) (q : Fin n) :
    matmul d prec A B (constant ⟨2, ![m, n]⟩ .f32 0x00000000#32) (ix2 p q) = ∑ c : Fin k, A (ix2 p c) * B (ix2 c q) := by
  rw [matmul_zero_eq_dotGeneral]
  exact dotGeneral_plain_apply d hd prec A B p q

end Cert.LibKeepdims

end
-- ==== Proof.ProjectionValue.lean ====
/-
  What the first kernel region leaves in its output array, as one function of the arrays it finds.

  The region walks ten row blocks of 5000 rows. At block `t` the body loads rows `5000 t … 5000 t + 4999` of the
  node features `A : [50000, 128]` and the whole weight `B : [128, 256]`, and stores their product accumulated into
  a zero block. At the ideal values a change of float format is the identity and the accumulation is an exact sum,
  so entry `(r, c)` of the output ends at `∑ k, A (r, k) · B (k, c)`: row `r` of the product needs row `r` of `A`
  only, and the ten blocks tile the 50000 rows.
-/
import proofs.«136635_j88837103550989_1_alg».proof.Proof.Gen.KernelIdeal.Frame
import proofs.«136635_j88837103550989_1_alg».proof.Proof.LibKeepdims
import Idealize.ShloMosaic.Lib.Pipeline.Value
import Idealize.ShloMosaic.Lib.ValueIdx
import Idealize.ShloMosaic.PureOps.Ideal.Laws

set_option maxRecDepth 16384

noncomputable section

namespace Cert.KernelIdeal.Projection

open Cert.KernelIdeal Cert.KernelIdeal.Gen
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem zero_offsets : (![0, 0] : Fin 2 → Nat) = fun _ => 0 := funext fun a => by fin_cases a <;> rfl

/-- The matrix product at the ideal values: rows of `A` against columns of `B`. -/
def product (A : FVec Ideal S50000x128 .f32) (B : FVec Ideal S128x256 .bf16) : FVec Ideal S50000x256 .f32 :=
  fun i => ∑ k : Fin 128, A (ix2 (i 0) k) * B (ix2 k (i 1))

/-- The body's stored value at `(p, q)` of its block: row `p` of the loaded rows against column `q` of the weight. -/
theorem stored_apply (x0 : Vec Ideal S5000x128 .f32) (x1 : Vec Ideal S128x256 .bf16) (p : Fin 5000) (q : Fin 256) :
    k0_pay1 x0 x1 (ix2 p q) = ∑ k : Fin 128, x0 (ix2 p k) * x1 (ix2 k q) := by
  unfold k0_pay1
  rw [shapeCast_self]
  exact Cert.LibKeepdims.matmul_plain_apply dot_S5000x128_S128x256_S5000x256_1_0_0_1_n_n rfl none
    (truncf .bf16 x0 bitsLt_bf16_f32) x1 p q

/-- The same at an index of the block and an index of the array that name one column, the loaded rows and the weight
    given by what they are read from: block row `p` is array row `r`. -/
theorem stored_eq (A : FVec Ideal S50000x128 .f32) (B : FVec Ideal S128x256 .bf16)
    (x0 : Vec Ideal S5000x128 .f32) (x1 : Vec Ideal S128x256 .bf16) (j : S5000x256.Idx) (i : S50000x256.Idx)
    (h0 : ∀ k : Fin 128, x0 (ix2 (j 0) k) = A (ix2 (i 0) k)) (h1 : ∀ y : S128x256.Idx, x1 y = B y) (hc : (i 1).val = (j 1).val) :
    k0_pay1 x0 x1 j = product A B i := by
  obtain ⟨p, q, rfl⟩ : ∃ (p : Fin 5000) (q : Fin 256), j = ix2 p q := ⟨j 0, j 1, eq_ix2 j⟩
  rw [stored_apply]
  unfold product
  have hq : (i 1 : Fin 256) = q := Fin.ext hc
  rw [hq]
  exact Finset.sum_congr rfl fun k _ => by rw [h0 k, h1]

/-- The block indices of the three windows over the grid: the two row-blocked windows are at block row `t`, the
    weight's window stays at its one block. -/
theorem block_indices : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point `t` writes back is block `t` of `product` of the two arrays the region reads. -/
theorem flushed_eq (c : Dev nD) (t : Fin cfg0.N) :
    (dat0 V c).flushed 2 t = ((cfg0.win 2).blk t).view.read (Elt Ideal) (product (V c main_arg0) (V c main_v8)) := by
  show (cfg0.win 2).cut (grid0.coords t) ((dat0 V c).after 2 t) = _
  rw [after0_2]
  unfold out0_2
  rw [View.canon_unit_zero zero_offsets]
  simp only [View.ld_unit_zero (S := S5000x128) zero_offsets, View.ld_unit_zero (S := S128x256) zero_offsets]
  obtain ⟨e0, e1, e2, e3, e4, e5⟩ := block_indices t
  funext j
  show k0_pay1 (iblk0 V c 0 t) (iblk0 V c 1 t) j = product (V c main_arg0) (V c main_v8) (((cfg0.win 2).blk t).view.emb j)
  refine stored_eq (V c main_arg0) (V c main_v8) (iblk0 V c 0 t) (iblk0 V c 1 t) j (((cfg0.win 2).blk t).view.emb j) ?_ ?_ ?_
  · intro k
    show V c main_arg0 (((cfg0.win 0).blk t).view.emb (ix2 (j 0) k)) = V c main_arg0 (ix2 ((((cfg0.win 2).blk t).view.emb j) 0) k)
    refine congrArg (V c main_arg0) (funext fun a => Fin.ext ?_)
    match a with
    | ⟨0, _⟩ => show win0_0.index t (0 : Fin 2) * 5000 + 1 * (j 0).val = win0_2.index t (0 : Fin 2) * 5000 + 1 * (j 0).val; omega
    | ⟨1, _⟩ => show win0_0.index t (1 : Fin 2) * 128 + 1 * k.val = k.val; omega
  · intro y
    show V c main_v8 (((cfg0.win 1).blk t).view.emb y) = V c main_v8 y
    refine congrArg (V c main_v8) (funext fun a => Fin.ext ?_)
    match a with
    | ⟨0, _⟩ => show win0_1.index t (0 : Fin 2) * 128 + 1 * (y 0).val = (y 0).val; omega
    | ⟨1, _⟩ => show win0_1.index t (1 : Fin 2) * 256 + 1 * (y 1).val = (y 1).val; omega
  · show win0_2.index t (1 : Fin 2) * 256 + 1 * (j 1).val = (j 1).val; omega

/-- An index of the array is in point `t`'s block iff each coordinate is in the block's range on its axis. -/
theorem mem_block (t : Fin cfg0.N) (i : S50000x256.Idx) :
    i ∈ ((cfg0.win 2).blk t).view.set ↔ ∀ a : Fin 2, win0_2.index t a * S5000x256.size a ≤ (i a).val ∧ (i a).val < win0_2.index t a * S5000x256.size a + S5000x256.size a := by
  show i ∈ ((View.whole main_v9).slice (win0_2.rect t)).set ↔ _
  rw [View.set_slice_whole, Rect.mem_set_unit]
  exact Iff.rfl

/-- Row `r` lies in block `r / 5000`: the ten blocks cover the array. -/
theorem covered (i : S50000x256.Idx) : ∃ t : Fin cfg0.N, (cfg0.win 2).flush t = true ∧ i ∈ ((cfg0.win 2).blk t).view.set := by
  have hi0 : (i 0).val < 50000 := (i 0).isLt
  have hi1 : (i 1).val < 256 := (i 1).isLt
  have hN : cfg0.N = 10 := N_0
  refine ⟨⟨(i 0).val / 5000, by rw [hN]; omega⟩, flush0_2 _, ?_⟩
  rw [mem_block]
  obtain ⟨-, -, -, -, e4, e5⟩ := block_indices ⟨(i 0).val / 5000, by rw [hN]; omega⟩
  intro a
  match a with
  | ⟨0, _⟩ =>
    show win0_2.index _ (0 : Fin 2) * 5000 ≤ (i 0).val ∧ (i 0).val < win0_2.index _ (0 : Fin 2) * 5000 + 5000
    rw [e4]; show (i 0).val / 5000 * 5000 ≤ (i 0).val ∧ (i 0).val < (i 0).val / 5000 * 5000 + 5000; omega
  | ⟨1, _⟩ =>
    show win0_2.index _ (1 : Fin 2) * 256 ≤ (i 1).val ∧ (i 1).val < win0_2.index _ (1 : Fin 2) * 256 + 256
    rw [e5]; omega

/-- The output array after the region: the product of the node features and the weight as the region finds them. -/
theorem result (c : Dev nD) : (dat0 V c).arrAt 2 cfg0.N = product (V c main_arg0) (V c main_v8) :=
  (dat0 V c).arrAt_eq_of_cover 2 (product (V c main_arg0) (V c main_v8)) (fun t _ => flushed_eq V c t) covered

end Cert.KernelIdeal.Projection

end
-- ==== Proof.EpilogueValue.lean ====
/-
  What the second kernel region leaves in its output array, as one function of the arrays it finds.

  The region walks ten row blocks of 5000 rows. At block `t` the body loads rows `5000 t … 5000 t + 4999` of the
  aggregated features and the whole 1 × 256 bias row, adds the bias row to every loaded row and stores the
  maximum with zero. So entry `(r, c)` of the output ends at `max (agg (r, c) + bias (0, c)) 0`: the value depends
  on the block only through the row it is read from, and the ten blocks tile the 50000 rows.
-/
import proofs.«136635_j88837103550989_1_alg».proof.Proof.Gen.KernelIdeal.Frame
import Idealize.ShloMosaic.Lib.Pipeline.Value
import Idealize.ShloMosaic.Lib.ValueIdx
import Idealize.ShloMosaic.PureOps.Ideal.Laws

set_option maxRecDepth 16384

noncomputable section

namespace Cert.KernelIdeal.Epilogue

open Cert.KernelIdeal Cert.KernelIdeal.Gen
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem zero_offsets : (![0, 0] : Fin 2 → Nat) = fun _ => 0 := funext fun a => by fin_cases a <;> rfl

/-- Every row of `A` plus the one row of `b2`, clamped below at the float zero. -/
def rowBiasRelu (A : FVec Ideal S50000x256 .f32) (b2 : FVec Ideal S1x256 .f32) : FVec Ideal S50000x256 .f32 :=
  fun i => max (A i + b2 (ix2 0 (i 1))) (Ideal.ofBits .f32 0x00000000#32)

/-- The body's stored value at `(p, q)` of its block: the loaded entry plus the bias row's entry `q`, clamped. -/
theorem stored_apply (x0 : Vec Ideal S5000x256 .f32) (x1 : Vec Ideal S1x256 .f32) (p : Fin 5000) (q : Fin 256) :
    k1_pay1 x0 x1 (ix2 p q) = max (x0 (ix2 p q) + x1 (ix2 0 q)) (Ideal.ofBits .f32 0x00000000#32) := by
  unfold k1_pay1
  rw [maximumf_apply, addf_apply, broadcast_apply, shapeCast_self, shapeCast_self,
    broadcastTo_apply x1 broadcasts_S1x256_S5000x256 (ix2 p q) (ix2 0 q) (fun a => by
      match a with
      | ⟨0, _⟩ => rfl
      | ⟨1, _⟩ => rfl)]
  rfl

/-- The same at an index of the block and an index of the array that name one column, the loaded entry and the bias
    row given by what they are read from. -/
theorem stored_eq (A : FVec Ideal S50000x256 .f32) (b2 : FVec Ideal S1x256 .f32)
    (x0 : Vec Ideal S5000x256 .f32) (x1 : Vec Ideal S1x256 .f32) (j : S5000x256.Idx) (i : S50000x256.Idx)
    (h0 : x0 j = A i) (h1 : ∀ q : S1x256.Idx, x1 q = b2 q) (hc : (i 1).val = (j 1).val) :
    k1_pay1 x0 x1 j = rowBiasRelu A b2 i := by
  obtain ⟨p, q, rfl⟩ : ∃ (p : Fin 5000) (q : Fin 256), j = ix2 p q := ⟨j 0, j 1, eq_ix2 j⟩
  rw [stored_apply, h0, h1]
  unfold rowBiasRelu
  have hq : (i 1 : Fin 256) = q := Fin.ext hc
  rw [hq]

/-- The block indices of the three windows over the grid: the two row-blocked windows are at block row `t`, the
    bias row's window stays at its one block. -/
theorem block_indices : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- What point `t` writes back is block `t` of `rowBiasRelu` of the two arrays the region reads. -/
theorem flushed_eq (c : Dev nD) (t : Fin cfg1.N) :
    (dat1 V c).flushed 2 t = ((cfg1.win 2).blk t).view.read (Elt Ideal) (rowBiasRelu (V c main_v45) (V c main_v46)) := by
  show (cfg1.win 2).cut (grid1.coords t) ((dat1 V c).after 2 t) = _
  rw [after1_2]
  unfold out1_2
  rw [View.canon_unit_zero zero_offsets]
  simp only [View.ld_unit_zero (S := S5000x256) zero_offsets, View.ld_unit_zero (S := S1x256) zero_offsets]
  obtain ⟨e0, e1, e2, e3, e4, e5⟩ := block_indices t
  funext j
  show k1_pay1 (iblk1 V c 0 t) (iblk1 V c 1 t) j = rowBiasRelu (V c main_v45) (V c main_v46) (((cfg1.win 2).blk t).view.emb j)
  refine stored_eq (V c main_v45) (V c main_v46) (iblk1 V c 0 t) (iblk1 V c 1 t) j (((cfg1.win 2).blk t).view.emb j) ?_ ?_ ?_
  · show V c main_v45 (((cfg1.win 0).blk t).view.emb j) = V c main_v45 (((cfg1.win 2).blk t).view.emb j)
    refine congrArg (V c main_v45) (funext fun a => Fin.ext ?_)
    match a with
    | ⟨0, _⟩ => show win1_0.index t (0 : Fin 2) * 5000 + 1 * (j 0).val = win1_2.index t (0 : Fin 2) * 5000 + 1 * (j 0).val; omega
    | ⟨1, _⟩ => show win1_0.index t (1 : Fin 2) * 256 + 1 * (j 1).val = win1_2.index t (1 : Fin 2) * 256 + 1 * (j 1).val; omega
  · intro q
    show V c main_v46 (((cfg1.win 1).blk t).view.emb q) = V c main_v46 q
    refine congrArg (V c main_v46) (funext fun a => Fin.ext ?_)
    match a with
    | ⟨0, _⟩ => show win1_1.index t (0 : Fin 2) * 1 + 1 * (q 0).val = (q 0).val; omega
    | ⟨1, _⟩ => show win1_1.index t (1 : Fin 2) * 256 + 1 * (q 1).val = (q 1).val; omega
  · show win1_2.index t (1 : Fin 2) * 256 + 1 * (j 1).val = (j 1).val; omega

/-- An index of the array is in point `t`'s block iff each coordinate is in the block's range on its axis. -/
theorem mem_block (t : Fin cfg1.N) (i : S50000x256.Idx) :
    i ∈ ((cfg1.win 2).blk t).view.set ↔ ∀ a : Fin 2, win1_2.index t a * S5000x256.size a ≤ (i a).val ∧ (i a).val < win1_2.index t a * S5000x256.size a + S5000x256.size a := by
  show i ∈ ((View.whole main_v47).slice (win1_2.rect t)).set ↔ _
  rw [View.set_slice_whole, Rect.mem_set_unit]
  exact Iff.rfl

/-- Row `r` lies in block `r / 5000`: the ten blocks cover the array. -/
theorem covered (i : S50000x256.Idx) : ∃ t : Fin cfg1.N, (cfg1.win 2).flush t = true ∧ i ∈ ((cfg1.win 2).blk t).view.set := by
  have hi0 : (i 0).val < 50000 := (i 0).isLt
  have hi1 : (i 1).val < 256 := (i 1).isLt
  have hN : cfg1.N = 10 := N_1
  refine ⟨⟨(i 0).val / 5000, by rw [hN]; omega⟩, flush1_2 _, ?_⟩
  rw [mem_block]
  obtain ⟨-, -, -, -, e4, e5⟩ := block_indices ⟨(i 0).val / 5000, by rw [hN]; omega⟩
  intro a
  match a with
  | ⟨0, _⟩ =>
    show win1_2.index _ (0 : Fin 2) * 5000 ≤ (i 0).val ∧ (i 0).val < win1_2.index _ (0 : Fin 2) * 5000 + 5000
    rw [e4]; show (i 0).val / 5000 * 5000 ≤ (i 0).val ∧ (i 0).val < (i 0).val / 5000 * 5000 + 5000; omega
  | ⟨1, _⟩ =>
    show win1_2.index _ (1 : Fin 2) * 256 ≤ (i 1).val ∧ (i 1).val < win1_2.index _ (1 : Fin 2) * 256 + 256
    rw [e5]; omega

/-- The output array after the region: `rowBiasRelu` of the aggregated features and the bias row as the region finds them. -/
theorem result (c : Dev nD) : (dat1 V c).arrAt 2 cfg1.N = rowBiasRelu (V c main_v45) (V c main_v46) :=
  (dat1 V c).arrAt_eq_of_cover 2 (rowBiasRelu (V c main_v45) (V c main_v46)) (fun t _ => flushed_eq V c t) covered

end Cert.KernelIdeal.Epilogue

end
-- ==== Proof.KernelValue.lean ====
/-
  The kernel's result array at the ideal values, as the shared host functions of one matrix product.

  Reading the run from its end: the result is the second region's output, `max (agg + bias row, 0)` of the two
  arrays that region finds; those are the host's aggregation of the first region's output `h` and the bias laid
  out as a row; `h` is the product of the node features with the transposed, narrowed weight. Two spellings meet
  here and are the same function on the extended reals:
    • the blocked product accumulated into zero against the host's one `dot_general`
      (both are `∑ k, x (r, k) · Wᵀ (k, c)`; narrowing the weight's format changes nothing at the ideal values);
    • the kernel's "add the 1 × 256 row to every row" against the host's two broadcasts of the bias vector
      (both read entry `c` of the bias at column `c`).
-/
import proofs.«136635_j88837103550989_1_alg».proof.Proof.KernelRun
import proofs.«136635_j88837103550989_1_alg».proof.Proof.KernelHost
import proofs.«136635_j88837103550989_1_alg».proof.Proof.ProjectionValue
import proofs.«136635_j88837103550989_1_alg».proof.Proof.EpilogueValue
import proofs.«136635_j88837103550989_1_alg».proof.Proof.RefValue
import proofs.«136635_j88837103550989_1_alg».proof.Proof.LibKeepdims

set_option maxRecDepth 16384

noncomputable section

namespace Cert.KernelIdeal.Result

open Cert.KernelIdeal Cert.KernelIdeal.Gen
open Idealize.ShloMosaic Idealize.ShloMosaic.TcCoe Idealize.ShloMosaic.ValueIdx Idealize.SL.Sem

/-- The blocked product over the transposed, narrowed weight is the host's `dot_general` over the transposed weight. -/
theorem product_eq_refFeatures (x : FVec Ideal S50000x128 .f32) (w : FVec Ideal S256x128 .f32) :
    Projection.product x (truncf .bf16 (transpose S128x256 [1, 0] w Facts₀.transposes_S256x128_S128x256_1_0) Facts₀.bitsLt_bf16_f32)
      = Cert.Bridge.refFeatures (F := Ideal) x w := by
  funext i
  obtain ⟨p, q, rfl⟩ : ∃ (p : Fin 50000) (q : Fin 256), i = ix2 p q := ⟨i 0, i 1, eq_ix2 i⟩
  unfold Cert.Bridge.refFeatures
  exact (Cert.LibKeepdims.dotGeneral_plain_apply Cert.ReferenceIdeal.dot_S50000x128_S128x256_S50000x256_1_0_0_1_n_n rfl none x _ p q).symm

/-- Adding the bias, reshaped to a row, to every row and clamping is the host's epilogue over the bias vector. -/
theorem rowBiasRelu_eq_biasRelu (A : FVec Ideal S50000x256 .f32) (b : FVec Ideal S256 .f32) :
    Epilogue.rowBiasRelu A (shapeCast _ b Facts₀.shapeCasts_S256_S1x256) = Cert.Bridge.biasRelu (F := Ideal) A b := by
  funext i
  unfold Epilogue.rowBiasRelu Cert.Bridge.biasRelu
  rw [maximumf_apply, addf_apply,
    shapeCast_apply b Facts₀.shapeCasts_S256_S1x256 (ix2 0 (i 1)) (ix1 (i 1))
      (by rewrite [Shape.rowMajor_val_two, Shape.rowMajor_val_one]; show (i 1).val = 0 * 256 + (i 1).val; omega),
    broadcastInDim_apply _ Cert.ReferenceIdeal.Facts₀.bcast_S1x256_S50000x256_0_1 _ i (ix2 0 (i 1)) (fun a => match a with
      | ⟨0, _⟩ => by show 0 = if (1 : Nat) = 1 then 0 else (i 0).val; rw [if_pos rfl]
      | ⟨1, _⟩ => by show (i 1).val = if (256 : Nat) = 1 then 0 else (i 1).val; rw [if_neg (by decide)]),
    broadcastInDim_apply _ Cert.ReferenceIdeal.Facts₀.bcast_S256_S1x256_1 b (ix2 0 (i 1)) (ix1 (i 1)) (fun a => match a with
      | ⟨0, _⟩ => by show (i 1).val = if (256 : Nat) = 1 then 0 else (i 1).val; rw [if_neg (by decide)]),
    broadcastInDim_apply _ Cert.ReferenceIdeal.Facts₀.bcast_S_S50000x256 _ i ix0 (fun a => a.elim0)]
  rfl

variable (m : (ℓ : Loc nD τ sig) → Buf (Elt Ideal) ℓ) (ρ : Dev nD → PrngReg)

/-- The result buffer at the end of the run: the epilogue of the aggregation of `x · Wᵀ` over the edge list. -/
theorem result_eq (c : Dev nD) :
    W6 m ρ c (Proc.devRef .tc main_v47)
      = Cert.Bridge.biasRelu
          (Cert.Bridge.aggregate
            (Cert.Bridge.refFeatures (m ((c : Thread nD τ).loc main_arg0)) (m ((c : Thread nD τ).loc main_arg2)))
            (Cert.Bridge.srcFull (m ((c : Thread nD τ).loc main_arg1))) (Cert.Bridge.dstFull (m ((c : Thread nD τ).loc main_arg1))))
          (m ((c : Thread nD τ).loc main_arg3)) := by
  -- the second region's output, of the two arrays it finds
  have h6 : W6 m ρ c (Proc.devRef .tc main_v47) = Epilogue.rowBiasRelu (V5 m ρ c main_v45) (V5 m ρ c main_v46) :=
    (W6_arr m ρ c 2).trans (Epilogue.result (V5 m ρ) c)
  -- the first region's output, of the two arrays it finds
  have h2 : W2 m ρ c (Proc.devRef .tc main_v9) = Projection.product (V1 m ρ c main_arg0) (V1 m ρ c main_v8) :=
    (W2_arr m ρ c 2).trans (Projection.result (V1 m ρ) c)
  -- what the first region does not write is as the host left it
  have hs : W2 m ρ c (Proc.devRef .tc main_v5) = Cert.Bridge.srcFull (m ((c : Thread nD τ).loc main_arg1)) :=
    (W2_of_ne m ρ c main_v5 (by decide)).trans (HostSide.src_at_entry m ρ c)
  have hd : W2 m ρ c (Proc.devRef .tc main_v6) = Cert.Bridge.dstFull (m ((c : Thread nD τ).loc main_arg1)) :=
    (W2_of_ne m ρ c main_v6 (by decide)).trans (HostSide.dst_at_entry m ρ c)
  have hb : W2 m ρ c (Proc.devRef .tc main_arg3) = m ((c : Thread nD τ).loc main_arg3) :=
    (W2_of_ne m ρ c main_arg3 (by decide)).trans (HostSide.bias_at_entry m ρ c)
  rw [h6]
  show Epilogue.rowBiasRelu (W5 m ρ c (Proc.devRef .tc main_v45)) (W5 m ρ c (Proc.devRef .tc main_v46)) = _
  rw [HostSide.aggregate_at_entry, HostSide.biasrow_at_entry, h2, hs, hd, hb, HostSide.features_at_entry, HostSide.weight_at_entry,
    product_eq_refFeatures, rowBiasRelu_eq_biasRelu]

end Cert.KernelIdeal.Result

end
-- ==== Proof.lean ====
/-
  A graph convolution layer: `out = relu (Â · (x · Wᵀ) + b)`, with `Â` the adjacency of the edge list with self loops,
  normalised symmetrically by the in-degrees.

  The kernel's program computes `x · Wᵀ` in a first kernel region (row blocks of 5000, the operands narrowed to a
  16-bit format) and `relu (· + b)` in a second (row blocks of 5000); the degree normalisation and the gather /
  scatter-add aggregation between them are host operations, the same ones the reference applies. The reference is
  all host operations.

  At the ideal values (extended reals, exact operations, a change of float format the identity):
    • the first region's output is `∑ k, x (r, k) · Wᵀ (k, c)`, which is the reference's `dot_general`;
    • both programs then apply one and the same aggregation to it (never opened here);
    • the second region's output is `max (agg (r, c) + b c, 0)`, which is the reference's bias add and relu.
  No step uses a law that fails at an infinity, so the precondition is never opened.

  The three frames: the two kernel programs' are the generated frame certificates; the reference's is its run with the
  result dropped. The idealisation rewrote no operation, so `preserves` has nothing to state.
-/
import proofs.«136635_j88837103550989_1_alg».proof.Defs
import proofs.«136635_j88837103550989_1_alg».proof.Proof.Gen.Kernel
import proofs.«136635_j88837103550989_1_alg».proof.Proof.Gen.Kernel.Frame
import proofs.«136635_j88837103550989_1_alg».proof.Proof.Gen.KernelIdeal
import proofs.«136635_j88837103550989_1_alg».proof.Proof.Gen.KernelIdeal.Frame
import proofs.«136635_j88837103550989_1_alg».proof.Proof.Gen.ReferenceIdeal
import proofs.«136635_j88837103550989_1_alg».proof.Proof.Gen.Pre_finite_inputs
import proofs.«136635_j88837103550989_1_alg».proof.Proof.RefRunPatched
import proofs.«136635_j88837103550989_1_alg».proof.Proof.RefValue
import proofs.«136635_j88837103550989_1_alg».proof.Proof.KernelValue
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.RunP.run (F := Ideal) m ρ)

/-- Both runs end with the result array at `biasRelu (aggregate (x · Wᵀ) src dst) b` of arguments that agree. -/
theorem algebraic : Cert.algebraic_KernelIdeal_ReferenceIdeal := by
  intro m ρ m' ρ' _ hagree
  refine ⟨fun c => Cert.Bridge.biasRelu
      (Cert.Bridge.aggregate
        (Cert.Bridge.refFeatures (m ((c.tc : Thread Cert.KernelIdeal.nD Cert.KernelIdeal.τ).loc Cert.KernelIdeal.main_arg0))
          (m ((c.tc : Thread Cert.KernelIdeal.nD Cert.KernelIdeal.τ).loc Cert.KernelIdeal.main_arg2)))
        (Cert.Bridge.srcFull (m ((c.tc : Thread Cert.KernelIdeal.nD Cert.KernelIdeal.τ).loc Cert.KernelIdeal.main_arg1)))
        (Cert.Bridge.dstFull (m ((c.tc : Thread Cert.KernelIdeal.nD Cert.KernelIdeal.τ).loc Cert.KernelIdeal.main_arg1))))
      (m ((c.tc : Thread Cert.KernelIdeal.nD Cert.KernelIdeal.τ).loc Cert.KernelIdeal.main_arg3)), ?_, ?_⟩
  · exact (θ_run Cert.KernelIdeal.defs _ _).mono
      (fun r h c => ⟨(h c).1.trans (Cert.KernelIdeal.Result.result_eq m ρ c), (h c).2⟩)
      (Cert.KernelIdeal.GenRun.run_main m ρ)
  · refine (θ_run Cert.ReferenceIdeal.defs _ _).mono (fun r h c => ⟨(h c).1.trans ?_, (h c).2⟩)
      (Cert.ReferenceIdeal.RunP.run (F := Ideal) m' ρ')
    rw [Cert.Bridge.ref_result, (hagree c).1, (hagree c).2.1, (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
